-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S_ : Shape := ⟨0, ![]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel

variable [Facts]

def fn {F : FTy → Type} [FloatOps F] (main_arg0 : FVec F S2x8x4096x64 .f32) (main_arg1 : FVec F S2x8x4096x64 .f32) (main_arg2 : FVec F S2x8x4096x64 .f32) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x8x4096x64 .f32 := Host.absf main_arg2
  let main_cst_2 : FVec F S_ .f32 := constant S_ .f32 0x7F800000#32
  let main_v10 : FVec F S2x8x4096x64 .f32 := broadcastInDim S2x8x4096x64 ![] bcast_S_S2x8x4096x64 main_cst_2
  let main_v11 : IVec S2x8x4096x64 1 := cmpf .olt main_v9 main_v10
  let main_c_3 : IVec S_ 1 := constantI S_ 1 1#1
  let main_v12 : IVec S_ 1 := (fun x v => Host.reduce IntOp.andi x v reducesTo_S2x8x4096x64_S_d0_1_2_3 h_S_) main_v11 main_c_3
  let main_v13 : IVec S_ 1 := andi main_v8 main_v12
  main_v13
-- ==== Kernel.lean ====
abbrev S2x8x4096x64 : Shape := ⟨4, ![2, 8, 4096, 64]⟩
abbrev S16x4096x64 : Shape := ⟨3, ![16, 4096, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S64x4096 : Shape := ⟨2, ![64, 4096]⟩
abbrev S512x4096 : Shape := ⟨2, ![512, 4096]⟩

abbrev nBuf : Space → Nat
  | .hbm => 8
  | .vmem => 8
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S16x4096x64, .f32⟩
  | .hbm, ⟨4, _⟩ => ⟨S16x4096x64, .f32⟩
  | .hbm, ⟨5, _⟩ => ⟨S16x4096x64, .f32⟩
  | .hbm, ⟨6, _⟩ => ⟨S16x4096x64, .f32⟩
  | .hbm, ⟨7, _⟩ => ⟨S2x8x4096x64, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x512x64, .f32⟩
  | .local _ .vmem, ⟨7, _⟩ => ⟨S1x512x64, .f32⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x8x4096x64_S16x4096x64 : S2x8x4096x64.ShapeCasts S16x4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  shapeCasts_S512x64_S1x512x64 : S512x64.ShapeCasts S1x512x64
  shapeCasts_S16x4096x64_S2x8x4096x64 : S16x4096x64.ShapeCasts S2x8x4096x64
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x4096x64.size a
  hwx0_0 : ∀ i : grid0.Coords, EltTy.bits .f32 = 32 ∨ (Rect.block (s := S16x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x4096x64.size a
  hwx0_3 : ∀ i : grid0.Coords, EltTy.bits .f32 = 32 ∨ (Rect.block (s := S16x4096x64) S1x512x64.size (cc0_transform_3 i) (hinb0_3 i)).WholeWords (EltTy.packing .f32)

variable [Facts₀]

def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x4096x64 : Shape := ⟨4, ![2, 8, 4096, 64]⟩
abbrev S2x8x4096x4096 : Shape := ⟨4, ![2, 8, 4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S2x8x4096x4096, .f32⟩
  | .hbm, ⟨4, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.AttnSpec.lean ====
/-
  Unnormalised attention as ONE function of its three argument arrays, index by index on the extended reals:
      out[g, r, d] = Σ_s ( Σ_e q[g, r, e] · k[g, s, e] ) · v[g, s, d],
  stated once over arrays of shape [16, 4096, 64] (one leading axis g for the sixteen (batch, head) pairs) and once
  over [2, 8, 4096, 64] (the two leading axes b, h kept apart), and the law that joins the two: viewing a
  [2, 8, 4096, 64] array as [16, 4096, 64] puts entry (b, h, r, e) at (8·b + h, r, e) — both positions are the same
  row-major offset — so attention of the three viewed arrays, viewed back, is attention of the arrays themselves.
  Nothing here needs the entries to be finite: both sides are the SAME nested sum, term by term.
-/
import Idealize.ShloMosaic.PureOps.Ideal
import Idealize.ShloMosaic.Lib.ValueIdx
import Idealize.ShloMosaic.Lib.Pipeline.Value

noncomputable section

namespace Cert.Attn

open Idealize.ShloMosaic Idealize.ShloMosaic.ValueIdx

/-- Sixteen (batch, head) pairs on one axis. -/
abbrev Sh3 : Shape := ⟨3, ![16, 4096, 64]⟩
/-- Batch and head on two axes. -/
abbrev Sh4 : Shape := ⟨4, ![2, 8, 4096, 64]⟩

/-- Scores row `r` against key row `s` of pair `g`: the inner product over the 64 features. -/
def score3 (q k : Sh3.Idx → EReal) (g : Fin 16) (r s : Fin 4096) : EReal :=
  ∑ e : Fin 64, q (ix3 g r e) * k (ix3 g s e)

/-- Attention over [16, 4096, 64]: the scores of row `r` against every key row, times the value rows, summed. -/
def attn3 (q k v : Sh3.Idx → EReal) : Sh3.Idx → EReal := fun i =>
  ∑ s : Fin 4096, score3 q k (i 0) (i 1) s * v (ix3 (i 0) s (i 2))

/-- The same scores with batch and head apart. -/
def score4 (q k : Sh4.Idx → EReal) (b : Fin 2) (h : Fin 8) (r s : Fin 4096) : EReal :=
  ∑ e : Fin 64, q (ix4 b h r e) * k (ix4 b h s e)

/-- Attention over [2, 8, 4096, 64]. -/
def attn4 (q k v : Sh4.Idx → EReal) : Sh4.Idx → EReal := fun i =>
  ∑ s : Fin 4096, score4 q k (i 0) (i 1) (i 2) s * v (ix4 (i 0) (i 1) s (i 3))

/-- A [2, 8, 4096, 64] array viewed as [16, 4096, 64], read at (g, r, e) with g = 8·b + h, is the array at (b, h, r, e):
    the two indices have one row-major offset. -/
theorem view3_apply (x : Sh4.Idx → EReal) (hc : Sh4.ShapeCasts Sh3) (b : Fin 2) (h : Fin 8) (r : Fin 4096) (e : Fin 64)
    (g : Fin 16) (hg : g.val = 8 * b.val + h.val) :
    shapeCast Sh3 x hc (ix3 g r e) = x (ix4 b h r e) :=
  shapeCast_apply x hc _ _ (by
    rw [Shape.rowMajor_val_four, Shape.rowMajor_val_three]
    show ((b.val * 8 + h.val) * 4096 + r.val) * 64 + e.val = (g.val * 4096 + r.val) * 64 + e.val
    rw [hg]; ring)

/-- A [16, 4096, 64] array viewed as [2, 8, 4096, 64], read at (b, h, r, d), is the array at (8·b + h, r, d). -/
theorem view4_apply (y : Sh3.Idx → EReal) (hc : Sh3.ShapeCasts Sh4) (i : Sh4.Idx) (g : Fin 16)
    (hg : g.val = 8 * (i 0).val + (i 1).val) :
    shapeCast Sh4 y hc i = y (ix3 g (i 2) (i 3)) :=
  shapeCast_apply y hc _ _ (by
    rw [Shape.rowMajor_val_four, Shape.rowMajor_val_three]
    show (g.val * 4096 + (i 2).val) * 64 + (i 3).val = (((i 0).val * 8 + (i 1).val) * 4096 + (i 2).val) * 64 + (i 3).val
    rw [hg]; ring)

/-- THE LAW: attention commutes with the change of view. Index (b, h, r, d) of the result read back is index
    (8·b + h, r, d) of attention over the viewed arrays, whose every factor is the viewed array at (8·b + h, ·, ·),
    that is the array itself at (b, h, ·, ·). -/
theorem attn3_view (q k v : Sh4.Idx → EReal) (h43 : Sh4.ShapeCasts Sh3) (h34 : Sh3.ShapeCasts Sh4) :
    shapeCast Sh4 (attn3 (shapeCast Sh3 q h43) (shapeCast Sh3 k h43) (shapeCast Sh3 v h43)) h34 = attn4 q k v := by
  funext i
  have hb : (i 0).val < 2 := (i 0).isLt
  have hh : (i 1).val < 8 := (i 1).isLt
  have hg : (⟨8 * (i 0).val + (i 1).val, by omega⟩ : Fin 16).val = 8 * (i 0).val + (i 1).val := rfl
  rw [view4_apply _ h34 i ⟨8 * (i 0).val + (i 1).val, by omega⟩ hg]
  unfold attn3 attn4 score3 score4
  refine Finset.sum_congr rfl fun s _ => ?_
  rw [view3_apply v h43 (i 0) (i 1) s (i 3) _ hg]
  refine congrArg (· * v (ix4 (i 0) (i 1) s (i 3))) (Finset.sum_congr rfl fun e _ => ?_)
  rw [view3_apply q h43 (i 0) (i 1) (i 2) e _ hg, view3_apply k h43 (i 0) (i 1) s e _ hg]

end Cert.Attn

end
-- ==== Proof.AttnBody.lean ====
/-
  What one grid point computes, read at an index. The body loads a [1, 512, 64] block of queries and the whole
  [1, 4096, 64] key and value blocks of the same (batch, head) pair, drops the unit axis, and forms
      scores = Q · Kᵀ   (contract the 64 features),      out = scores · V   (contract the 4096 key rows),
  each product into a zero accumulator; the changes of float format around the products are the identity on
  extended reals. So entry (0, r, d) of what it stores is
      Σ_s ( Σ_e Q[0, r, e] · K[0, s, e] ) · V[0, s, d].
  The transpose only re-indexes K (entry (e, s) of Kᵀ is entry (s, e) of K), and a product into a zero accumulator
  is the plain sum over the contracted axis.
-/
import proofs.«181858_j26268019982930_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.AttnBody

open Cert.KernelIdeal Cert.KernelIdeal.Gen Idealize.ShloMosaic Idealize.ShloMosaic.ValueIdx

/-! ## The unit axis dropped and put back -/

/-- The query block viewed [512, 64]: entry (r, e) is entry (0, r, e). -/
theorem q_view (x : Vec Ideal S1x512x64 .f32) (r : Fin 512) (e : Fin 64) :
    shapeCast S512x64 x shapeCasts_S1x512x64_S512x64 (ix2 r e) = x (ix3 0 r e) :=
  shapeCast_apply x _ _ _ (by
    rw [Shape.rowMajor_val_three, Shape.rowMajor_val_two]
    show (0 * 512 + r.val) * 64 + e.val = r.val * 64 + e.val
    omega)

/-- A key or value block viewed [4096, 64]: entry (s, e) is entry (0, s, e). -/
theorem kv_view (x : Vec Ideal S1x4096x64 .f32) (s : Fin 4096) (e : Fin 64) :
    shapeCast S4096x64 x shapeCasts_S1x4096x64_S4096x64 (ix2 s e) = x (ix3 0 s e) :=
  shapeCast_apply x _ _ _ (by
    rw [Shape.rowMajor_val_three, Shape.rowMajor_val_two]
    show (0 * 4096 + s.val) * 64 + e.val = s.val * 64 + e.val
    omega)

/-- The [512, 64] result stored as a [1, 512, 64] block: entry (z, r, d) (z = 0) is entry (r, d). -/
theorem out_view (y : FVec Ideal S512x64 .f32) (z : Fin 1) (r : Fin 512) (d : Fin 64) :
    shapeCast S1x512x64 y shapeCasts_S512x64_S1x512x64 (ix3 z r d) = y (ix2 r d) :=
  shapeCast_apply y _ _ _ (by
    rw [Shape.rowMajor_val_three, Shape.rowMajor_val_two]
    show r.val * 64 + d.val = (z.val * 512 + r.val) * 64 + d.val
    have hz : z.val < 1 := z.isLt
    omega)

/-- Entry (e, s) of the transposed keys is entry (s, e) of the keys. -/
theorem kT_apply (x : FVec Ideal S4096x64 .bf16) (e : Fin 64) (s : Fin 4096) :
    transpose S64x4096 [1, 0] x transposes_S4096x64_p1_0_S64x4096 (ix2 e s) = x (ix2 s e) :=
  transpose_apply [1, 0] x _ _ _ (fun b => match b with | ⟨0, _⟩ => rfl | ⟨1, _⟩ => rfl)

/-! ## The two products, each into a zero accumulator, as sums over the contracted axis -/

theorem qk_lhs_0 (i : S512x4096.Idx) (q : dot_S512x64_S64x4096_S512x4096_1_0_0_1_n_n.contr.Idx) :
    (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide), dif_pos (show (0 : Fin S512x64.rank) ∈ dot_S512x64_S64x4096_S512x4096_1_0_0_1_n_n.lhsNonContracting by decide)]
  rfl
theorem qk_lhs_1 (i : S512x4096.Idx) (q : dot_S512x64_S64x4096_S512x4096_1_0_0_1_n_n.contr.Idx) :
    (dot_S512x64_S64x4096_S512x4096_1_0_0_1_n_n.lhsIdx i q 1).val = (q ⟨0, by decide⟩).val :=
  dot_S512x64_S64x4096_S512x4096_1_0_0_1_n_n.lhsIdx_val_of_single rfl i q
theorem qk_rhs_0 (i : S512x4096.Idx) (q : dot_S512x64_S64x4096_S512x4096_1_0_0_1_n_n.contr.Idx) :
    (dot_S512x64_S64x4096_S512x4096_1_0_0_1_n_n.rhsIdx i q 0).val = (q ⟨0, by decide⟩).val :=
  dot_S512x64_S64x4096_S512x4096_1_0_0_1_n_n.rhsIdx_val_of_single rfl i q
theorem qk_rhs_1 (i : S512x4096.Idx) (q : dot_S512x64_S64x4096_S512x4096_1_0_0_1_n_n.contr.Idx) :
    (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide), dif_pos (show (1 : Fin S64x4096.rank) ∈ dot_S512x64_S64x4096_S512x4096_1_0_0_1_n_n.rhsNonContracting by decide)]
  rfl

/-- The scores: entry (r, s) of Q · Kᵀ into zero is the sum over the 64 features of Q[r, e] · Kᵀ[e, s]. -/
theorem scores_apply (a : FVec Ideal S512x64 .bf16) (b : FVec Ideal S64x4096 .bf16) (r : Fin 512) (s : Fin 4096) :
    matmul dot_S512x64_S64x4096_S512x4096_1_0_0_1_n_n none a b (constant (F := Ideal) S512x4096 .f32 0x00000000#32) (ix2 r s)
      = ∑ e : Fin 64, a (ix2 r e) * b (ix2 e s) := by
  simp only [matmul]
  rw [Ideal.matmul_constant_zero_apply, ← Equiv.sum_comp (contrEquiv1 dot_S512x64_S64x4096_S512x4096_1_0_0_1_n_n 64 rfl rfl).symm]
  refine Finset.sum_congr rfl fun e _ => ?_
  have he := contrEquiv1_symm_val dot_S512x64_S64x4096_S512x4096_1_0_0_1_n_n 64 rfl rfl e
  have el : dot_S512x64_S64x4096_S512x4096_1_0_0_1_n_n.lhsIdx (ix2 r s) ((contrEquiv1 dot_S512x64_S64x4096_S512x4096_1_0_0_1_n_n 64 rfl rfl).symm e) = ix2 r e := funext fun a => Fin.ext (by
    match a with
    | ⟨0, _⟩ => exact qk_lhs_0 _ _
    | ⟨1, _⟩ => exact (qk_lhs_1 _ _).trans he)
  have er : dot_S512x64_S64x4096_S512x4096_1_0_0_1_n_n.rhsIdx (ix2 r s) ((contrEquiv1 dot_S512x64_S64x4096_S512x4096_1_0_0_1_n_n 64 rfl rfl).symm e) = ix2 e s := funext fun a => Fin.ext (by
    match a with
    | ⟨0, _⟩ => exact (qk_rhs_0 _ _).trans he
    | ⟨1, _⟩ => exact qk_rhs_1 _ _)
  rw [el, er]

theorem sv_lhs_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem sv_lhs_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem sv_rhs_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem sv_rhs_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The output: entry (r, d) of scores · V into zero is the sum over the 4096 key rows of scores[r, s] · V[s, d]. -/
theorem weighted_apply (a : FVec Ideal S512x4096 .bf16) (b : FVec Ideal S4096x64 .bf16) (r : Fin 512) (d : Fin 64) :
    matmul dot_S512x4096_S4096x64_S512x64_1_0_0_1_n_n none a b (constant (F := Ideal) S512x64 .f32 0x00000000#32) (ix2 r d)
      = ∑ s : Fin 4096, a (ix2 r s) * b (ix2 s d) := by
  simp only [matmul]
  rw [Ideal.matmul_constant_zero_apply, ← Equiv.sum_comp (contrEquiv1 dot_S512x4096_S4096x64_S512x64_1_0_0_1_n_n 4096 rfl rfl).symm]
  refine Finset.sum_congr rfl fun s _ => ?_
  have hs := contrEquiv1_symm_val dot_S512x4096_S4096x64_S512x64_1_0_0_1_n_n 4096 rfl rfl s
  have el : dot_S512x4096_S4096x64_S512x64_1_0_0_1_n_n.lhsIdx (ix2 r d) ((contrEquiv1 dot_S512x4096_S4096x64_S512x64_1_0_0_1_n_n 4096 rfl rfl).symm s) = ix2 r s := funext fun a => Fin.ext (by
    match a with
    | ⟨0, _⟩ => exact sv_lhs_0 _ _
    | ⟨1, _⟩ => exact (sv_lhs_1 _ _).trans hs)
  have er : dot_S512x4096_S4096x64_S512x64_1_0_0_1_n_n.rhsIdx (ix2 r d) ((contrEquiv1 dot_S512x4096_S4096x64_S512x64_1_0_0_1_n_n 4096 rfl rfl).symm s) = ix2 s d := funext fun a => Fin.ext (by
    match a with
    | ⟨0, _⟩ => exact (sv_rhs_0 _ _).trans hs
    | ⟨1, _⟩ => exact sv_rhs_1 _ _)
  rw [el, er]

/-! ## The stored block at an index -/

/-- THE BODY'S VALUE: entry (z, r, d) of the block the body stores, from the three blocks it loaded. -/
theorem stored_apply (x0 : Vec Ideal S1x512x64 .f32) (x1 x2 : Vec Ideal S1x4096x64 .f32) (z : Fin 1) (r : Fin 512) (d : Fin 64) :
    k0_pay1 (F := Ideal) x0 x1 x2 (ix3 z r d)
      = ∑ s : Fin 4096, (∑ e : Fin 64, x0 (ix3 0 r e) * x1 (ix3 0 s e)) * x2 (ix3 0 s d) := by
  unfold k0_pay1
  refine (out_view _ z r d).trans ?_
  refine (weighted_apply _ _ r d).trans ?_
  refine Finset.sum_congr rfl fun s _ => ?_
  -- the two narrowings around the first product are the identity
  refine (congrArg₂ (· * ·) (scores_apply _ _ r s) (kv_view x2 s d)).trans ?_
  refine congrArg (· * x2 (ix3 0 s d)) (Finset.sum_congr rfl fun e _ => ?_)
  exact congrArg₂ (· * ·) (q_view x0 r e) ((kT_apply _ e s).trans (kv_view x1 s e))

end Cert.KernelIdeal.AttnBody

end
-- ==== Proof.AttnArray.lean ====
/-
  From what each grid point writes to the whole result. The grid is 16 × 8: point t works on the (batch, head) pair
  g = t / 8 and on the query rows 512·(t mod 8) … 512·(t mod 8) + 511. Its query block and its output block sit at block
  index (g, t mod 8, 0) of the [16, 4096, 64] arrays; its key and value blocks are the whole pair, block index (g, 0, 0).
  So entry (0, r, e) of the query block is entry (g, 512·(t mod 8) + r, e) of the query array, entry (0, s, e) of the key
  block is entry (g, s, e) of the key array, likewise the values; and the body's nested sum over those blocks is
  attention of the three arrays read at (g, 512·(t mod 8) + r, d): point t writes back its block of ONE whole-array function.
  The 128 output blocks tile the result array (row ρ of pair g belongs to point 8·g + ρ / 512), so the array ends holding
  attention of the three [16, 4096, 64] arrays. Around the region the program only changes the view: the three arguments
  [2, 8, 4096, 64] → [16, 4096, 64] before it, the result back after it; attention commutes with that change of view, so the
  program's result is attention of its arguments.
-/
import proofs.«181858_j26268019982930_1_alg».proof.Proof.Gen.KernelIdeal.Frame
import proofs.«181858_j26268019982930_1_alg».proof.Proof.AttnSpec
import proofs.«181858_j26268019982930_1_alg».proof.Proof.AttnBody
import Idealize.ShloMosaic.Lib.Pipeline.Value
import Idealize.ShloMosaic.Lib.StableHlo.Run

set_option maxRecDepth 16384

noncomputable section

namespace Cert.KernelIdeal.AttnValue

open Cert.KernelIdeal Cert.KernelIdeal.Gen Cert.Attn Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The three arrays the region reads, and where a point's blocks sit in them -/

/-- The query, key and value arrays as the region finds them, [16, 4096, 64]. -/
abbrev qArr (c : Dev nD) : Sh3.Idx → EReal := V m c main_v0
abbrev kArr (c : Dev nD) : Sh3.Idx → EReal := V m c main_v1
abbrev vArr (c : Dev nD) : Sh3.Idx → EReal := V m c main_v2

theorem hN : cfg0.N = 128 := N_0

/-- The (batch, head) pair of point `t`. -/
def pairOf (t : Fin cfg0.N) : Fin 16 := ⟨t.val / 8, by have h := t.isLt; have := hN; omega⟩
/-- Row `r` of point `t`'s query block as a row of the array. -/
def rowOf (t : Fin cfg0.N) (r : Fin 512) : Fin 4096 := ⟨512 * (t.val % 8) + r.val, by have := r.isLt; omega⟩

/-- The printed index maps over the grid: queries and output at block (t / 8, t mod 8, 0), keys and values at (t / 8, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-- Entry (0, r, e) of point `t`'s query block is entry (t / 8, 512·(t mod 8) + r, e) of the query array. -/
theorem qblk_apply (c : Dev nD) (t : Fin cfg0.N) (r : Fin 512) (e : Fin 64) :
    (iblk m c 0 t : Vec Ideal S1x512x64 .f32) (ix3 0 r e) = qArr m c (ix3 (pairOf t) (rowOf t r) e) := by
  obtain ⟨e0, e1, e2, -⟩ := idx_facts t
  show V m c main_v0 (((cfg0.win 0).blk t).view.emb (ix3 0 r e)) = V m c main_v0 (ix3 (pairOf t) (rowOf t r) e)
  refine congrArg (V m c main_v0) (funext fun a => Fin.ext ?_)
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 64 + 1 * e.val = e.val; omega

/-- Entry (0, s, e) of point `t`'s key block is entry (t / 8, s, e) of the key array. -/
theorem kblk_apply (c : Dev nD) (t : Fin cfg0.N) (s : Fin 4096) (e : Fin 64) :
    (iblk m c 1 t : Vec Ideal S1x4096x64 .f32) (ix3 0 s e) = kArr m c (ix3 (pairOf t) s e) := by
  obtain ⟨-, -, -, e0, e1, e2, -⟩ := idx_facts t
  show V m c main_v1 (((cfg0.win 1).blk t).view.emb (ix3 0 s e)) = V m c main_v1 (ix3 (pairOf t) s e)
  refine congrArg (V m c main_v1) (funext fun a => Fin.ext ?_)
  match a with
  | ⟨0, _⟩ => show win0_1.index t (0 : Fin 3) * 1 + 1 * 0 = t.val / 8; omega
  | ⟨1, _⟩ => show win0_1.index t (1 : Fin 3) * 4096 + 1 * s.val = s.val; omega
  | ⟨2, _⟩ => show win0_1.index t (2 : Fin 3) * 64 + 1 * e.val = e.val; omega

/-- Entry (0, s, d) of point `t`'s value block is entry (t / 8, s, d) of the value array. -/
theorem vblk_apply (c : Dev nD) (t : Fin cfg0.N) (s : Fin 4096) (d : Fin 64) :
    (iblk m c 2 t : Vec Ideal S1x4096x64 .f32) (ix3 0 s d) = vArr m c (ix3 (pairOf t) s d) := by
  obtain ⟨-, -, -, -, -, -, e0, e1, e2, -⟩ := idx_facts t
  show V m c main_v2 (((cfg0.win 2).blk t).view.emb (ix3 0 s d)) = V m c main_v2 (ix3 (pairOf t) s d)
  refine congrArg (V m c main_v2) (funext fun a => Fin.ext ?_)
  match a with
  | ⟨0, _⟩ => show win0_2.index t (0 : Fin 3) * 1 + 1 * 0 = t.val / 8; omega
  | ⟨1, _⟩ => show win0_2.index t (1 : Fin 3) * 4096 + 1 * s.val = s.val; omega
  | ⟨2, _⟩ => show win0_2.index t (2 : Fin 3) * 64 + 1 * d.val = d.val; omega

/-! ## What point `t` stores is its block of attention of the three arrays -/

/-- Entry (z, r, d) of what the body stores at point `t` is attention of the arrays at (t / 8, 512·(t mod 8) + r, d). -/
theorem point_value (c : Dev nD) (t : Fin cfg0.N) (z : Fin 1) (r : Fin 512) (d : Fin 64) :
    k0_pay1 (F := Ideal) (iblk m c 0 t) (iblk m c 1 t) (iblk m c 2 t) (ix3 z r d)
      = attn3 (qArr m c) (kArr m c) (vArr m c) (ix3 (pairOf t) (rowOf t r) d) := by
  refine (AttnBody.stored_apply (iblk m c 0 t) (iblk m c 1 t) (iblk m c 2 t) z r d).trans ?_
  show _ = ∑ s : Fin 4096, score3 (qArr m c) (kArr m c) (pairOf t) (rowOf t r) s * vArr m c (ix3 (pairOf t) s d)
  refine Finset.sum_congr rfl fun s _ => ?_
  refine congrArg₂ (· * ·) ?_ (vblk_apply m c t s d)
  exact Finset.sum_congr rfl fun e _ => congrArg₂ (· * ·) (qblk_apply m c t r e) (kblk_apply m c t s e)

theorem hz : (![0, 0, 0] : Fin 3 → Nat) = fun _ => 0 := funext fun a => by fin_cases a <;> rfl

/-- WHAT POINT `t` WRITES BACK is block `t` of attention of the three arrays. -/
theorem flushed3_eq (c : Dev nD) (t : Fin cfg0.N) :
    (dats m 0 c).flushed 3 t = ((cfg0.win 3).blk t).view.read (Elt Ideal) (attn3 (qArr m c) (kArr m c) (vArr m c)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x4096x64) hz]
  obtain ⟨-, -, -, -, -, -, -, -, -, e0, e1, e2⟩ := idx_facts t
  funext j
  have hj0 : (j 0).val < 1 := (j 0).isLt
  have hj1 : (j 1).val < 512 := (j 1).isLt
  have hj2 : (j 2).val < 64 := (j 2).isLt
  show k0_pay1 (F := Ideal) (iblk m c 0 t) (iblk m c 1 t) (iblk m c 2 t) (ix3 ⟨(j 0).val, hj0⟩ ⟨(j 1).val, hj1⟩ ⟨(j 2).val, hj2⟩)
    = attn3 (qArr m c) (kArr m c) (vArr m c) (((cfg0.win 3).blk t).view.emb j)
  refine (point_value m c t _ _ _).trans (congrArg (attn3 (qArr m c) (kArr m c) (vArr m c)) (funext fun a => Fin.ext ?_))
  match a with
  | ⟨0, _⟩ => show t.val / 8 = win0_3.index t (0 : Fin 3) * 1 + 1 * (j 0).val; omega
  | ⟨1, _⟩ => show 512 * (t.val % 8) + (j 1).val = win0_3.index t (1 : Fin 3) * 512 + 1 * (j 1).val; omega
  | ⟨2, _⟩ => show (j 2).val = win0_3.index t (2 : Fin 3) * 64 + 1 * (j 2).val; omega

/-! ## The 128 output blocks tile the result array -/

/-- An index of the array is in point `t`'s output block iff each coordinate is in the block's range on its axis. -/
theorem mem_blk3 (t : Fin cfg0.N) (i : S16x4096x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3).slice (win0_3.rect t)).set ↔ _
  rw [View.set_slice_whole, Rect.mem_set_unit]
  exact Iff.rfl

/-- Row ρ of pair g is written by point 8·g + ρ / 512. -/
theorem cover3 (i : S16x4096x64.Idx) : ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 64 := (i 2).isLt
  have hN' := hN
  obtain ⟨t, ht⟩ : ∃ t : Fin cfg0.N, t.val = 8 * (i 0).val + (i 1).val / 512 := ⟨⟨8 * (i 0).val + (i 1).val / 512, by omega⟩, rfl⟩
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE RESULT ARRAY of the region after the run: attention of the three arrays the region read. -/
theorem final3 (c : Dev nD) : (dats m 0 c).arrAt 3 cfg0.N = attn3 (qArr m c) (kArr m c) (vArr m c) :=
  (dats m 0 c).arrAt_eq_of_cover 3 _ (fun t _ => flushed3_eq m c t) cover3

/-! ## The changes of view around the region -/

/-- The region's query array is the first argument viewed [16, 4096, 64]; likewise keys and values. -/
theorem qArr_eq (c : Dev nD) : qArr m c = shapeCast S16x4096x64 (m ((c : Thread nD τ).loc main_arg0)) shapeCasts_S2x8x4096x64_S16x4096x64 := by
  show StableHlo.after hostOps0 (fun b => m (c, b)) (Proc.devRef .tc main_v0) = _
  after_results
  rfl
theorem kArr_eq (c : Dev nD) : kArr m c = shapeCast S16x4096x64 (m ((c : Thread nD τ).loc main_arg1)) shapeCasts_S2x8x4096x64_S16x4096x64 := by
  show StableHlo.after hostOps0 (fun b => m (c, b)) (Proc.devRef .tc main_v1) = _
  after_results
  rfl
theorem vArr_eq (c : Dev nD) : vArr m c = shapeCast S16x4096x64 (m ((c : Thread nD τ).loc main_arg2)) shapeCasts_S2x8x4096x64_S16x4096x64 := by
  show StableHlo.after hostOps0 (fun b => m (c, b)) (Proc.devRef .tc main_v2) = _
  after_results
  rfl

/-- THE PROGRAM'S RESULT: the region's result array viewed [2, 8, 4096, 64] is attention of the three arguments. -/
theorem result_eq (c : Dev nD) :
    Pipeline.afterTail₀ cfgs (dats m) 0 (V0 m) [hostOps1] c main_v4
      = attn4 (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays spec0 c (V0 m c) (fun w => (dats m 0 c).arrAt w cfg0.N) (Proc.devRef .tc main_v3)
      = attn3 (qArr m c) (kArr m c) (vArr m c) :=
    (Pipeline.withArrays_arr spec0 launch0.win.arr_inj c (V0 m c) (fun w => (dats m 0 c).arrAt w cfg0.N) 3).trans (final3 m c)
  show shapeCast S2x8x4096x64 (Pipeline.withArrays spec0 c (V0 m c) (fun w => (dats m 0 c).arrAt w cfg0.N) (Proc.devRef .tc main_v3))
      shapeCasts_S16x4096x64_S2x8x4096x64 = _
  rw [hw, qArr_eq, kArr_eq, vArr_eq]
  exact attn3_view _ _ _ _ _

/-! ## The run, read -/

/-- Every weakly fair execution of the program terminates with its result at attention of its three arguments, the
    arguments unchanged: the frame run, its post read at the result (the view back of the region's result array) and at
    each argument (no line of the program writes one). -/
theorem run : θ_run defs (onTc (τ := τ) (main (F := Ideal))) ⟨m, fun _ => 0, ρ⟩ fun r => ∀ c : Dev nD,
      r.2.mem ((c : Thread nD τ).loc main_v4)
        = attn4 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.AttnValue

end
-- ==== Proof.RefAttn.lean ====
/-
  The reference computes attention with batch and head kept apart: first the scores, a product of the queries and the keys
  contracting the 64 features with (batch, head) as batch axes, entry (b, h, r, s) = Σ_e q[b, h, r, e] · k[b, h, s, e]; then
  the product of the scores and the values contracting the 4096 key rows, entry (b, h, r, d) = Σ_s scores[b, h, r, s] · v[b, h, s, d].
  Read one product at a time, at an index, the composed term is the nested sum `attn4` — the operand indices of each
  product are exactly the coordinates that sum names.
-/
import proofs.«181858_j26268019982930_1_alg».proof.Proof.Gen.ReferenceIdeal.Run
import proofs.«181858_j26268019982930_1_alg».proof.Proof.Gen.ReferenceIdeal.Read
import proofs.«181858_j26268019982930_1_alg».proof.Proof.AttnSpec

noncomputable section

namespace Cert.ReferenceIdeal.RefValue

open Cert.ReferenceIdeal Cert.ReferenceIdeal.Gen Cert.ReferenceIdeal.Read Cert.Attn
open Idealize.ShloMosaic Idealize.ShloMosaic.ValueIdx

/-- The reference's result as a function of its three arguments is attention over [2, 8, 4096, 64]. -/
theorem result_eq (q k v : (⟨S2x8x4096x64, .f32⟩ : BufTy).Contents (Elt Ideal)) :
    val_main_v1 (F := Ideal) q k v = attn4 q k v := by
  funext i
  rw [val_main_v1_apply]
  show _ = ∑ s : Fin 4096, score4 q k (i 0) (i 1) (i 2) s * v (ix4 (i 0) (i 1) s (i 3))
  refine Finset.sum_congr rfl fun s _ => ?_
  rw [val_main_v0_apply]
  refine congrArg₂ (· * ·) (Finset.sum_congr rfl fun e _ => congrArg₂ (· * ·) (congrArg q ?_) (congrArg k ?_)) (congrArg v ?_)
  · exact funext fun a => Fin.ext (match a with | ⟨0, _⟩ => rfl | ⟨1, _⟩ => rfl | ⟨2, _⟩ => rfl | ⟨3, _⟩ => rfl)
  · exact funext fun a => Fin.ext (match a with | ⟨0, _⟩ => rfl | ⟨1, _⟩ => rfl | ⟨2, _⟩ => rfl | ⟨3, _⟩ => rfl)
  · exact funext fun a => Fin.ext (match a with | ⟨0, _⟩ => rfl | ⟨1, _⟩ => rfl | ⟨2, _⟩ => rfl | ⟨3, _⟩ => rfl)

end Cert.ReferenceIdeal.RefValue

end
-- ==== Proof.lean ====
/-
  Unnormalised attention, out = (Q · Kᵀ) · V, over q, k, v of shape [2, 8, 4096, 64].
  The kernel views the arguments as [16, 4096, 64], and on a 16 × 8 grid forms, for one (batch, head) pair and 512 query
  rows at a time, the scores against all 4096 keys of the pair and then their product with the pair's values, each product
  into a zero accumulator; it views the result back as [2, 8, 4096, 64]. The reference contracts the 64 features with
  (batch, head) as batch axes, then the 4096 key rows. On the extended reals a change of float format is the identity and
  a product into zero is the plain sum over the contracted axis, so both programs end at
      out[b, h, r, d] = Σ_s ( Σ_e q[b, h, r, e] · k[b, h, s, e] ) · v[b, h, s, d]
  — the same nested sum, term by term; no law that needs finite entries is used. The modules: the specification and the
  change-of-view law (Proof/AttnSpec), one grid point's value (Proof/AttnBody), the blocks tiling the result and the views
  around the region (Proof/AttnArray), the reference's two products read at an index (Proof/RefAttn).
  The three frames: the two kernels' are the frame runs of their pipelines; the reference's is its run with the result
  dropped. The idealization rewrote no operation, so there is nothing to preserve.
-/
import proofs.«181858_j26268019982930_1_alg».proof.Defs
import proofs.«181858_j26268019982930_1_alg».proof.Proof.Gen.Kernel
import proofs.«181858_j26268019982930_1_alg».proof.Proof.Gen.Kernel.Skeleton
import proofs.«181858_j26268019982930_1_alg».proof.Proof.Gen.Kernel.Launch
import proofs.«181858_j26268019982930_1_alg».proof.Proof.Gen.Kernel.Points
import proofs.«181858_j26268019982930_1_alg».proof.Proof.Gen.Kernel.Frame
import proofs.«181858_j26268019982930_1_alg».proof.Proof.Gen.KernelIdeal
import proofs.«181858_j26268019982930_1_alg».proof.Proof.Gen.KernelIdeal.Skeleton
import proofs.«181858_j26268019982930_1_alg».proof.Proof.Gen.KernelIdeal.Launch
import proofs.«181858_j26268019982930_1_alg».proof.Proof.Gen.KernelIdeal.Points
import proofs.«181858_j26268019982930_1_alg».proof.Proof.Gen.KernelIdeal.Frame
import proofs.«181858_j26268019982930_1_alg».proof.Proof.Gen.ReferenceIdeal
import proofs.«181858_j26268019982930_1_alg».proof.Proof.Gen.ReferenceIdeal.Run
import proofs.«181858_j26268019982930_1_alg».proof.Proof.Gen.ReferenceIdeal.Read
import proofs.«181858_j26268019982930_1_alg».proof.Proof.Gen.Pre_finite_inputs
import proofs.«181858_j26268019982930_1_alg».proof.Proof.AttnSpec
import proofs.«181858_j26268019982930_1_alg».proof.Proof.AttnBody
import proofs.«181858_j26268019982930_1_alg».proof.Proof.AttnArray
import proofs.«181858_j26268019982930_1_alg».proof.Proof.RefAttn
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at attention of their arguments, and the arguments agree. -/
theorem algebraic : Cert.algebraic_KernelIdeal_ReferenceIdeal := by
  intro m ρ m' ρ' _ hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
